-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20000 : Shape := ⟨2, ![4096, 20000]⟩
abbrev S20000x5000 : Shape := ⟨2, ![20000, 5000]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S20000x5000 : S_.BroadcastsInDim S20000x5000 (![] : Fin 0 → Fin S20000x5000.rank)
  reducesTo_S20000x5000_S_d0_1 : S20000x5000.ReducesTo [0, 1] S_

variable [Facts]

def fn {F : FTy → Type} [FloatOps F] (main_arg0 : FVec F S4096x20000 .f32) (main_arg1 : FVec F S20000x5000 .f32) (main_arg2 : FVec F S20000x5000 .f32) : IVec S_ 1 :=
  let main_v0 : FVec F S4096x20000 .f32 := Host.absf main_arg0
  let main_cst : FVec F S_ .f32 := constant S_ .f32 0x7F800000#32
  let main_v1 : FVec F S4096x20000 .f32 := broadcastInDim S4096x20000 ![] bcast_S_S4096x20000 main_cst
  let main_v2 : IVec S4096x20000 1 := cmpf .olt main_v0 main_v1
  let main_c : IVec S_ 1 := constantI S_ 1 1#1
  let main_v3 : IVec S_ 1 := (fun x v => Host.reduce IntOp.andi x v reducesTo_S4096x20000_S_d0_1 h_S_) main_v2 main_c
  let main_v4 : FVec F S20000x5000 .f32 := Host.absf main_arg1
  let main_cst_0 : FVec F S_ .f32 := constant S_ .f32 0x7F800000#32
  let main_v5 : FVec F S20000x5000 .f32 := broadcastInDim S20000x5000 ![] bcast_S_S20000x5000 main_cst_0
  let main_v6 : IVec S20000x5000 1 := cmpf .olt main_v4 main_v5
  let main_c_1 : IVec S_ 1 := constantI S_ 1 1#1
  let main_v7 : IVec S_ 1 := (fun x v => Host.reduce IntOp.andi x v reducesTo_S20000x5000_S_d0_1 h_S_) main_v6 main_c_1
  let main_v8 : IVec S_ 1 := andi main_v3 main_v7
  let main_v9 : FVec F S20000x5000 .f32 := Host.absf main_arg2
  let main_cst_2 : FVec F S_ .f32 := constant S_ .f32 0x7F800000#32
  let main_v10 : FVec F S20000x5000 .f32 := broadcastInDim S20000x5000 ![] bcast_S_S20000x5000 main_cst_2
  let main_v11 : IVec S20000x5000 1 := cmpf .olt main_v9 main_v10
  let main_c_3 : IVec S_ 1 := constantI S_ 1 1#1
  let main_v12 : IVec S_ 1 := (fun x v => Host.reduce IntOp.andi x v reducesTo_S20000x5000_S_d0_1 h_S_) main_v11 main_c_3
  let main_v13 : IVec S_ 1 := andi main_v8 main_v12
  main_v13
-- ==== Kernel.lean ====
abbrev S4096x20000 : Shape := ⟨2, ![4096, 20000]⟩
abbrev S20000x5000 : Shape := ⟨2, ![20000, 5000]⟩
abbrev S_ : Shape := ⟨0, ![]⟩
abbrev S4096x20480 : Shape := ⟨2, ![4096, 20480]⟩
abbrev S20480x5120 : Shape := ⟨2, ![20480, 5120]⟩
abbrev S4096x5120 : Shape := ⟨2, ![4096, 5120]⟩
abbrev S512x1024 : Shape := ⟨2, ![512, 1024]⟩
abbrev S1024x1024 : Shape := ⟨2, ![1024, 1024]⟩
abbrev S4096x5000 : Shape := ⟨2, ![4096, 5000]⟩

abbrev nBuf : Space → Nat
  | .hbm => 14
  | .vmem => 9
  | .smem => 0
  | _ => 0

abbrev bufTy : (tb : Table) → Fin (tcTables nBuf tb) → BufTy
  | .hbm, ⟨0, _⟩ => ⟨S4096x20000, .f32⟩
  | .hbm, ⟨1, _⟩ => ⟨S20000x5000, .f32⟩
  | .hbm, ⟨2, _⟩ => ⟨S20000x5000, .f32⟩
  | .hbm, ⟨3, _⟩ => ⟨S_, .i32⟩
  | .hbm, ⟨4, _⟩ => ⟨S_, .f32⟩
  | .hbm, ⟨5, _⟩ => ⟨S4096x20480, .f32⟩
  | .hbm, ⟨6, _⟩ => ⟨S_, .i32⟩
  | .hbm, ⟨7, _⟩ => ⟨S_, .f32⟩
  | .hbm, ⟨8, _⟩ => ⟨S20480x5120, .f32⟩
  | .hbm, ⟨9, _⟩ => ⟨S_, .i32⟩
  | .hbm, ⟨10, _⟩ => ⟨S_, .f32⟩
  | .hbm, ⟨11, _⟩ => ⟨S20480x5120, .f32⟩
  | .hbm, ⟨12, _⟩ => ⟨S4096x5120, .f32⟩
  | .hbm, ⟨13, _⟩ => ⟨S4096x5000, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 5, 20], ![false, false, false]⟩

def k0_cond2 (i : grid0.Coords) : BitVec 1 :=
  let arg2 : BitVec 32 := BitVec.ofNat 32 (i 2).val
  let c19_i32 : BitVec 32 := 19#32
  let v18 : BitVec 1 := Scalar.cmpi .eq arg2 c19_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S4096x20000_S4096x20480_000_04800 : S4096x20000.Pads (![0, 0] : Fin 2 → Nat) ![0, 480] ![0, 0] S4096x20480
  h_S_ : 0 < S_.numel
  pads_S20000x5000_S20480x5120_04800_01200 : S20000x5000.Pads (![0, 0] : Fin 2 → Nat) ![480, 120] ![0, 0] S20480x5120
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S4096x5120_S4096x5000_0_0 : S4096x5120.Slices ![0, 0] S4096x5000
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x20480.size a
  hwx0_0 : ∀ i : grid0.Coords, EltTy.bits .f32 = 32 ∨ (Rect.block (s := S4096x20480) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S20480x5120.size a
  hwx0_1 : ∀ i : grid0.Coords, EltTy.bits .f32 = 32 ∨ (Rect.block (s := S20480x5120) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S20480x5120.size a
  hwx0_2 : ∀ i : grid0.Coords, EltTy.bits .f32 = 32 ∨ (Rect.block (s := S20480x5120) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x5120.size a
  hwx0_3 : ∀ i : grid0.Coords, EltTy.bits .f32 = 32 ∨ (Rect.block (s := S4096x5120) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x20000 : Shape := ⟨2, ![4096, 20000]⟩
abbrev S20000x5000 : Shape := ⟨2, ![20000, 5000]⟩
abbrev S4096x5000 : Shape := ⟨2, ![4096, 5000]⟩

abbrev nBuf : Space → Nat
  | .hbm => 5
  | .vmem => 0
  | .smem => 0
  | _ => 0

abbrev bufTy : (tb : Table) → Fin (tcTables nBuf tb) → BufTy
  | .hbm, ⟨0, _⟩ => ⟨S4096x20000, .f32⟩
  | .hbm, ⟨1, _⟩ => ⟨S20000x5000, .f32⟩
  | .hbm, ⟨2, _⟩ => ⟨S20000x5000, .f32⟩
  | .hbm, ⟨3, _⟩ => ⟨S20000x5000, .f32⟩
  | .hbm, ⟨4, _⟩ => ⟨S4096x5000, .f32⟩
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x20000_S20000x5000_S4096x5000_1_0_0_1_n_n_wf : DotDims.WF S4096x20000 S20000x5000 S4096x5000 [1] [0] [0] [1] [] []

variable [Facts₀]

def dot_S4096x20000_S20000x5000_S4096x5000_1_0_0_1_n_n : DotDims S4096x20000 S20000x5000 S4096x5000 where
  lhsContracting := [1]
  rhsContracting := [0]
  lhsNonContracting := [0]
  rhsNonContracting := [1]
  lhsBatch := []
  rhsBatch := []
  wf := dot_S4096x20000_S20000x5000_S4096x5000_1_0_0_1_n_n_wf

class Facts : Prop extends Facts₀ where

variable [Facts]
-- ==== Proof.Spec.lean ====
/-
  The mathematics of the masked product, with no program in sight.

  The result entry (r, s) is the sum over k < 20000 of x[r,k] · (w[k,s] · mask[k,s]) on the extended reals.
  The tiled computation works on arrays padded with zeros to 20480 contraction entries (and 5120 columns), and
  adds up the contraction in 20 consecutive runs of 1024 entries.  Two facts join the two forms:
  a sum of 20480 terms is the sum of its 20 runs of 1024 (re-indexing, valid in any commutative monoid, so also
  with infinite entries), and the 480 padded terms are each 0 · (0 · 0) = 0.
-/
import Idealize.ShloMosaic.PureOps.Ideal
import Idealize.ShloMosaic.Lib.ValueIdx
import Mathlib.Algebra.BigOperators.Fin

noncomputable section

namespace Cert.MaskedProduct

open Idealize.ShloMosaic Idealize.ShloMosaic.ValueIdx

/-- One term of the contraction at output entry (r, s): x[r,k] · (w[k,s] · mask[k,s]). -/
def term {M K N : Nat} (x : (⟨2, ![M, K]⟩ : Shape).Idx → EReal) (w mk : (⟨2, ![K, N]⟩ : Shape).Idx → EReal)
    (r : Fin M) (s : Fin N) : Fin K → EReal :=
  fun k => x (ix2 r k) * (w (ix2 k s) * mk (ix2 k s))

/-- The masked product x · (w ⊙ mask), entry by entry. -/
def prod {M K N : Nat} (x : (⟨2, ![M, K]⟩ : Shape).Idx → EReal) (w mk : (⟨2, ![K, N]⟩ : Shape).Idx → EReal) :
    (⟨2, ![M, N]⟩ : Shape).Idx → EReal :=
  fun i => ∑ k : Fin K, term x w mk (i 0) (i 1) k

/-- Run `j` (of 20) of a sum of 20480 terms: the terms j·1024 … j·1024 + 1023.  Zero past the last run. -/
def runSum (F : Fin 20480 → EReal) (j : ℕ) : EReal :=
  if h : j < 20 then ∑ kk : Fin 1024, F ⟨j * 1024 + kk.val, by have := kk.isLt; omega⟩ else 0

theorem runSum_of_lt (F : Fin 20480 → EReal) (j : ℕ) (h : j < 20) :
    runSum F j = ∑ kk : Fin 1024, F ⟨j * 1024 + kk.val, by have := kk.isLt; omega⟩ := dif_pos h

/-- Position k of 20480 is entry k % 1024 of run k / 1024. -/
def runEquiv : Fin 20 × Fin 1024 ≃ Fin 20480 where
  toFun a := ⟨a.1.val * 1024 + a.2.val, by have := a.1.isLt; have := a.2.isLt; omega⟩
  invFun k := (⟨k.val / 1024, by have := k.isLt; omega⟩, ⟨k.val % 1024, by omega⟩)
  left_inv a := by
    have h1 := a.1.isLt; have h2 := a.2.isLt
    apply Prod.ext <;> apply Fin.ext <;> dsimp only <;> omega
  right_inv k := by apply Fin.ext; dsimp only; omega

/-- The 20 runs add up to the whole sum. -/
theorem sum_runs (F : Fin 20480 → EReal) : ∑ j ∈ Finset.range 20, runSum F j = ∑ k, F k := by
  rw [← Fin.sum_univ_eq_sum_range (fun j => runSum F j) 20]
  rw [← Equiv.sum_comp runEquiv F, Fintype.sum_prod_type]
  refine Finset.sum_congr rfl fun j _ => ?_
  rw [runSum_of_lt F j.val j.isLt]
  rfl

/-- A sum of 20480 terms whose last 480 vanish is the sum of the first 20000. -/
theorem sum_padded (F : Fin 20480 → EReal) (f : Fin 20000 → EReal)
    (hlo : ∀ k : Fin 20000, F ⟨k.val, by have := k.isLt; omega⟩ = f k)
    (hhi : ∀ k : Fin 20480, 20000 ≤ k.val → F k = 0) : ∑ k, F k = ∑ k, f k := by
  have e := Fin.sum_univ_add (M := EReal) (a := 20000) (b := 480) F
  rw [e]
  have h2 : ∑ i : Fin 480, F (Fin.natAdd 20000 i) = 0 :=
    Finset.sum_eq_zero fun i _ => hhi _ (by show 20000 ≤ 20000 + i.val; omega)
  rw [h2, add_zero]
  exact Finset.sum_congr rfl fun k _ => hlo k

/-- The padded product restricted to the unpadded entries is the product: if xp, wp, mp are x, w, mask
    extended by zeros, then at every entry (r, s) with s < 5000 the 20480-term sum is the 20000-term sum. -/
theorem prod_padded (x : (⟨2, ![4096, 20000]⟩ : Shape).Idx → EReal) (w mk : (⟨2, ![20000, 5000]⟩ : Shape).Idx → EReal)
    (xp : (⟨2, ![4096, 20480]⟩ : Shape).Idx → EReal) (wp mp : (⟨2, ![20480, 5120]⟩ : Shape).Idx → EReal)
    (hx : ∀ (r : Fin 4096) (k : Fin 20480), xp (ix2 r k) = if h : k.val < 20000 then x (ix2 r ⟨k.val, h⟩) else 0)
    (hw : ∀ (k : Fin 20480) (s : Fin 5120), wp (ix2 k s)
      = if h : k.val < 20000 ∧ s.val < 5000 then w (ix2 ⟨k.val, h.1⟩ ⟨s.val, h.2⟩) else 0)
    (hm : ∀ (k : Fin 20480) (s : Fin 5120), mp (ix2 k s)
      = if h : k.val < 20000 ∧ s.val < 5000 then mk (ix2 ⟨k.val, h.1⟩ ⟨s.val, h.2⟩) else 0)
    (r : Fin 4096) (s : Fin 5000) :
    prod xp wp mp (ix2 r ⟨s.val, by have := s.isLt; omega⟩) = prod x w mk (ix2 r s) := by
  unfold prod
  refine sum_padded _ _ (fun k => ?_) (fun k hk => ?_)
  · have hk := k.isLt; have hs := s.isLt
    show xp (ix2 r _) * (wp (ix2 _ _) * mp (ix2 _ _)) = x (ix2 r k) * (w (ix2 k s) * mk (ix2 k s))
    rw [hx, hw, hm, dif_pos (show k.val < 20000 from hk), dif_pos (show k.val < 20000 ∧ s.val < 5000 from ⟨hk, hs⟩),
      dif_pos (show k.val < 20000 ∧ s.val < 5000 from ⟨hk, hs⟩)]
  · show xp (ix2 r _) * (wp (ix2 _ _) * mp (ix2 _ _)) = 0
    rw [hx, dif_neg (show ¬k.val < 20000 by omega), zero_mul]

end Cert.MaskedProduct

end
-- ==== Proof.Payload.lean ====
/-
  The body's arithmetic at one entry, on the extended reals.

  One grid step adds to the running block `acc` the product of the x tile (512 × 1024) with the masked weight tile
  (1024 × 1024): entry (p, q) of the stored value is  acc[p,q] + Σ_{kk < 1024} x[p,kk] · (w[kk,q] · mask[kk,q]).
  The conversions to bf16 are the identity on exact values, and the matrix unit, fed a zero accumulator, returns the
  plain sum over the contracted axis.  The reset value stored at a first step is zero everywhere.
-/
import proofs.«129715_j71700184039905_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! The tile product's operand indices: at output entry i and contraction position q the left operand is read at
    (i₀, q) and the right operand at (q, i₁). -/

theorem lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The tile product into a zero accumulator, at entry (p, q): the sum over the 1024 contracted positions. -/
theorem tile_product_apply (a : FVec Ideal S512x1024 .bf16) (b : FVec Ideal S1024x1024 .bf16) (p : Fin 512) (q : Fin 1024) :
    FloatOps.matmul dot_S512x1024_S1024x1024_S512x1024_1_0_0_1_n_n none a b (constant S512x1024 .f32 0x00000000#32) (ix2 p q)
      = ∑ kk : Fin 1024, a (ix2 p kk) * b (ix2 kk q) := by
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- One step's stored value at entry (p, q): the running value there plus the tile product's entry. -/
theorem step_apply (x : Vec Ideal S512x1024 .f32) (w mk : Vec Ideal S1024x1024 .f32) (acc : Vec Ideal S512x1024 .f32)
    (p : Fin 512) (q : Fin 1024) :
    k0_pay2 (F := Ideal) x w mk acc (ix2 p q)
      = acc (ix2 p q) + ∑ kk : Fin 1024, x (ix2 p kk) * (w (ix2 kk q) * mk (ix2 kk q)) := by
  unfold k0_pay2
  simp only [shapeCast_self]
  show acc (ix2 p q) + FloatOps.matmul (F := Ideal) dot_S512x1024_S1024x1024_S512x1024_1_0_0_1_n_n none _ _ (constant (F := Ideal) S512x1024 .f32 0x00000000#32) (ix2 p q) = _
  rw [tile_product_apply]
  rfl

/-- The reset value is zero at every entry. -/
theorem reset_apply (i : S512x1024.Idx) : k0_pay1 (F := Ideal) i = 0 := by
  unfold k0_pay1
  simp only [shapeCast_self]
  exact Ideal.ofBits_zero_f32

end Cert.KernelIdeal.Payload

end
-- ==== Proof.Pieces.lean ====
/-
  What one grid step leaves behind, as a value.

  The body keeps a running block in a scratch buffer that lives across grid steps.  At a first step (contraction
  coordinate 0) it stores zeros, reads them back, and stores zeros-plus-tile-product; at a later step it reads the
  running block and stores it plus the tile product; at a last step (contraction coordinate 19) it does the same and
  then copies the running block into the output tile.  Each buffer's final contents are read here off the stores the
  step made: every store covers its whole buffer, so the contents are the last store's value, and a load placed
  after a store of the same step reads that store's value.
-/
import proofs.«129715_j71700184039905_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A first step leaves in the running block: the step's value over the zero block. -/
theorem first_acc (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .f32) (x1 : Vec F S1024x1024 .f32) (x2 : Vec F S1024x1024 .f32) :
    sout0_A_0 c i arg3 harg3 arg4 harg4 arg5 harg5 arg6 harg6 arg7 harg7 hc0 hc1 x0 x1 x2 = k0_pay2 x0 x1 x2 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg7.read_unread, View.ld_unit_zero (S := S512x1024) hz, View.ld_unit_zero (S := S1024x1024) hz]

/-- A middle step leaves in the running block: the step's value over what the step before left. -/
theorem middle_acc (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x1024 .f32) (x1 : Vec F S1024x1024 .f32) (x2 : Vec F S1024x1024 .f32) (xs0 : Vec F S512x1024 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread, View.ld_unit_zero (S := S512x1024) hz, View.ld_unit_zero (S := S1024x1024) hz]

/-- A last step leaves in the running block: the step's value over what the step before left. -/
theorem last_acc (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1024x1024 .f32) (xs0 : Vec F S512x1024 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S512x1024) hz, View.ld_unit_zero (S := S1024x1024) hz]

/-- A last step leaves in the output tile the same value: the running block read back after its store. -/
theorem last_out (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1024x1024 .f32) (xs0 : Vec F S512x1024 .f32) :
    out0_C_3 c i arg3 harg3 arg4 harg4 arg5 harg5 arg6 harg6 arg7 harg7 hc0 hc1 x0 x1 x2 xs0 = k0_pay2 x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S512x1024) _ hz, View.readAt_eq_ld, harg3.read_unread, harg4.read_unread, harg5.read_unread, harg7.read_unread, View.ld_unit_zero (S := S512x1024) hz, View.ld_unit_zero (S := S1024x1024) hz]

end Cert.KernelIdeal.Pieces

end
-- ==== Proof.Blocks.lean ====
/-
  Where the tiles sit in the padded arrays, and what the padded arrays hold.

  The grid has 800 points; point t works on row tile t / 100 (of 8), column tile (t / 20) % 5 (of 5) and contraction
  tile t % 20 (of 20).  The x tile at t is rows 512·(t/100) … and contraction positions 1024·(t%20) … of the padded x;
  the weight and mask tiles are contraction positions 1024·(t%20) … and columns 1024·((t/20)%5) … of the padded
  weight and mask; the output tile is rows 512·(t/100) … and columns 1024·((t/20)%5) ….
  The padded arrays are the arguments extended by zeros: x from 20000 to 20480 contraction positions, weight and
  mask from 20000 × 5000 to 20480 × 5120.
-/
import proofs.«129715_j71700184039905_1_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

section AnyValues

variable {F : FTy → Type} [FloatOps F]
variable (m : (ℓ : Loc nD τ sig) → Buf (Elt F) ℓ)

/-- The padded x, weight and mask, as the grid finds them. -/
abbrev xpad (c : Dev nD) : Vec F S4096x20480 .f32 := V m c main_v0
abbrev wpad (c : Dev nD) : Vec F S20480x5120 .f32 := V m c main_v1
abbrev mpad (c : Dev nD) : Vec F S20480x5120 .f32 := V m c main_v2

/-- The three arguments, at their literal shapes. -/
abbrev xarg (c : Dev nD) : Vec F S4096x20000 .f32 := m ((c : Thread nD τ).loc main_arg0)
abbrev warg (c : Dev nD) : Vec F S20000x5000 .f32 := m ((c : Thread nD τ).loc main_arg1)
abbrev marg (c : Dev nD) : Vec F S20000x5000 .f32 := m ((c : Thread nD τ).loc main_arg2)

/-- The tiles at a grid point. -/
abbrev xblk (c : Dev nD) (t : Fin cfg0.N) : Vec F S512x1024 .f32 := iblk m c 0 t
abbrev wblk (c : Dev nD) (t : Fin cfg0.N) : Vec F S1024x1024 .f32 := iblk m c 1 t
abbrev mblk (c : Dev nD) (t : Fin cfg0.N) : Vec F S1024x1024 .f32 := iblk m c 2 t

/-! The tile indices at point t, decided once over the 800 points. -/

theorem idx_x : ∀ t : Fin cfg0.N, win0_0.index t (0 : Fin 2) = t.val / 100 ∧ win0_0.index t (1 : Fin 2) = t.val % 20 :=
  (by decide +kernel : ∀ t : Fin grid0.N, _)
theorem idx_w : ∀ t : Fin cfg0.N, win0_1.index t (0 : Fin 2) = t.val % 20 ∧ win0_1.index t (1 : Fin 2) = t.val / 20 % 5 :=
  (by decide +kernel : ∀ t : Fin grid0.N, _)
theorem idx_m : ∀ t : Fin cfg0.N, win0_2.index t (0 : Fin 2) = t.val % 20 ∧ win0_2.index t (1 : Fin 2) = t.val / 20 % 5 :=
  (by decide +kernel : ∀ t : Fin grid0.N, _)
theorem idx_o : ∀ t : Fin cfg0.N, win0_3.index t (0 : Fin 2) = t.val / 100 ∧ win0_3.index t (1 : Fin 2) = t.val / 20 % 5 :=
  (by decide +kernel : ∀ t : Fin grid0.N, _)

/-- Entry (p, kk) of the x tile at t is entry (512·(t/100) + p, 1024·(t%20) + kk) of the padded x. -/
theorem xblk_apply (c : Dev nD) (t : Fin cfg0.N) (p : Fin 512) (kk : Fin 1024) (r : Fin 4096) (k : Fin 20480)
    (hr : r.val = t.val / 100 * 512 + p.val) (hk : k.val = t.val % 20 * 1024 + kk.val) :
    xblk m c t (ix2 p kk) = xpad m c (ix2 r k) := by
  unfold xblk iblk
  rw [View.read_apply]
  show V m c main_v0 _ = V m c main_v0 _
  congr 1
  funext a
  apply Fin.ext
  match a with
  | ⟨0, _⟩ => show win0_0.index t 0 * 512 + 1 * p.val = r.val; rw [(idx_x t).1, hr]; omega
  | ⟨1, _⟩ => show win0_0.index t 1 * 1024 + 1 * kk.val = k.val; rw [(idx_x t).2, hk]; omega

/-- Entry (kk, q) of the weight tile at t is entry (1024·(t%20) + kk, 1024·((t/20)%5) + q) of the padded weight. -/
theorem wblk_apply (c : Dev nD) (t : Fin cfg0.N) (kk : Fin 1024) (q : Fin 1024) (k : Fin 20480) (s : Fin 5120)
    (hk : k.val = t.val % 20 * 1024 + kk.val) (hs : s.val = t.val / 20 % 5 * 1024 + q.val) :
    wblk m c t (ix2 kk q) = wpad m c (ix2 k s) := by
  unfold wblk iblk
  rw [View.read_apply]
  show V m c main_v1 _ = V m c main_v1 _
  congr 1
  funext a
  apply Fin.ext
  match a with
  | ⟨0, _⟩ => show win0_1.index t 0 * 1024 + 1 * kk.val = k.val; rw [(idx_w t).1, hk]; omega
  | ⟨1, _⟩ => show win0_1.index t 1 * 1024 + 1 * q.val = s.val; rw [(idx_w t).2, hs]; omega

/-- The same for the mask tile. -/
theorem mblk_apply (c : Dev nD) (t : Fin cfg0.N) (kk : Fin 1024) (q : Fin 1024) (k : Fin 20480) (s : Fin 5120)
    (hk : k.val = t.val % 20 * 1024 + kk.val) (hs : s.val = t.val / 20 % 5 * 1024 + q.val) :
    mblk m c t (ix2 kk q) = mpad m c (ix2 k s) := by
  unfold mblk iblk
  rw [View.read_apply]
  show V m c main_v2 _ = V m c main_v2 _
  congr 1
  funext a
  apply Fin.ext
  match a with
  | ⟨0, _⟩ => show win0_2.index t 0 * 1024 + 1 * kk.val = k.val; rw [(idx_m t).1, hk]; omega
  | ⟨1, _⟩ => show win0_2.index t 1 * 1024 + 1 * q.val = s.val; rw [(idx_m t).2, hs]; omega

/-! The padded arrays are the host's pads of the arguments by the converted integer zero. -/

theorem xpad_eq (c : Dev nD) : xpad m c = pad S4096x20480 ![0, 0] ![0, 480] ![0, 0] (m ((c : Thread nD τ).loc main_arg0)) (sitofp (F := F) .f32 (constantI S_ 32 0#32)) pads_S4096x20000_S4096x20480_000_04800 h_S_ := by
  dsimp only [xpad, V, V0]
  simp only [hostOps0, hostOps0_1, hostOps0_2, hostOps0_3, hostOps0_4, hostOps0_5, List.flatten_cons, List.flatten_nil, List.append_nil, List.cons_append, List.nil_append]
  after_results
  rfl

theorem wpad_eq (c : Dev nD) : wpad m c = pad S20480x5120 ![0, 0] ![480, 120] ![0, 0] (m ((c : Thread nD τ).loc main_arg1)) (sitofp (F := F) .f32 (constantI S_ 32 0#32)) pads_S20000x5000_S20480x5120_04800_01200 h_S_ := by
  dsimp only [wpad, V, V0]
  simp only [hostOps0, hostOps0_1, hostOps0_2, hostOps0_3, hostOps0_4, hostOps0_5, List.flatten_cons, List.flatten_nil, List.append_nil, List.cons_append, List.nil_append]
  after_results
  rfl

theorem mpad_eq (c : Dev nD) : mpad m c = pad S20480x5120 ![0, 0] ![480, 120] ![0, 0] (m ((c : Thread nD τ).loc main_arg2)) (sitofp (F := F) .f32 (constantI S_ 32 0#32)) pads_S20000x5000_S20480x5120_04800_01200 h_S_ := by
  dsimp only [mpad, V, V0]
  simp only [hostOps0, hostOps0_1, hostOps0_2, hostOps0_3, hostOps0_4, hostOps0_5, List.flatten_cons, List.flatten_nil, List.append_nil, List.cons_append, List.nil_append]
  after_results
  rfl

end AnyValues

section AtIdeal

variable (m : (ℓ : Loc nD τ sig) → Buf (Elt Ideal) ℓ)

/-- The padding value is the real zero. -/
theorem pad_value : (sitofp (F := Ideal) .f32 (constantI S_ 32 0#32)) (Shape.Idx.first h_S_) = 0 :=
  sitofp_zero (φ := .f32)

/-- The padded x at (r, k): x there when k < 20000, zero in the padding. -/
theorem xpad_apply (c : Dev nD) (r : Fin 4096) (k : Fin 20480) :
    xpad m c (ix2 r k) = if h : k.val < 20000 then xarg m c (ix2 r ⟨k.val, h⟩) else 0 := by
  rw [xpad_eq]
  by_cases h : k.val < 20000
  · rw [dif_pos h]
    exact pad_apply_of_inside _ _ _ _ _ _ _ (ix2 r k) (ix2 r ⟨k.val, h⟩) (fun a => by
      match a with
      | ⟨0, _⟩ => show r.val = 0 + r.val * (0 + 1); omega
      | ⟨1, _⟩ => show k.val = 0 + k.val * (0 + 1); omega)
  · rw [dif_neg h]
    refine (pad_apply_of_not_inside _ _ _ _ _ _ _ (ix2 r k) (1 : Fin 2) ?_).trans pad_value
    show ¬(0 ≤ k.val ∧ (k.val - 0) % (0 + 1) = 0 ∧ (k.val - 0) / (0 + 1) < 20000)
    omega

/-- The padded weight at (k, s): the weight there when k < 20000 and s < 5000, zero in the padding. -/
theorem wpad_apply (c : Dev nD) (k : Fin 20480) (s : Fin 5120) :
    wpad m c (ix2 k s) = if h : k.val < 20000 ∧ s.val < 5000 then warg m c (ix2 ⟨k.val, h.1⟩ ⟨s.val, h.2⟩) else 0 := by
  rw [wpad_eq]
  by_cases h : k.val < 20000 ∧ s.val < 5000
  · rw [dif_pos h]
    exact pad_apply_of_inside _ _ _ _ _ _ _ (ix2 k s) (ix2 ⟨k.val, h.1⟩ ⟨s.val, h.2⟩) (fun a => by
      match a with
      | ⟨0, _⟩ => show k.val = 0 + k.val * (0 + 1); omega
      | ⟨1, _⟩ => show s.val = 0 + s.val * (0 + 1); omega)
  · rw [dif_neg h]
    by_cases hk : k.val < 20000
    · refine (pad_apply_of_not_inside _ _ _ _ _ _ _ (ix2 k s) (1 : Fin 2) ?_).trans pad_value
      show ¬(0 ≤ s.val ∧ (s.val - 0) % (0 + 1) = 0 ∧ (s.val - 0) / (0 + 1) < 5000)
      omega
    · refine (pad_apply_of_not_inside _ _ _ _ _ _ _ (ix2 k s) (0 : Fin 2) ?_).trans pad_value
      show ¬(0 ≤ k.val ∧ (k.val - 0) % (0 + 1) = 0 ∧ (k.val - 0) / (0 + 1) < 20000)
      omega

/-- The same for the padded mask. -/
theorem mpad_apply (c : Dev nD) (k : Fin 20480) (s : Fin 5120) :
    mpad m c (ix2 k s) = if h : k.val < 20000 ∧ s.val < 5000 then marg m c (ix2 ⟨k.val, h.1⟩ ⟨s.val, h.2⟩) else 0 := by
  rw [mpad_eq]
  by_cases h : k.val < 20000 ∧ s.val < 5000
  · rw [dif_pos h]
    exact pad_apply_of_inside _ _ _ _ _ _ _ (ix2 k s) (ix2 ⟨k.val, h.1⟩ ⟨s.val, h.2⟩) (fun a => by
      match a with
      | ⟨0, _⟩ => show k.val = 0 + k.val * (0 + 1); omega
      | ⟨1, _⟩ => show s.val = 0 + s.val * (0 + 1); omega)
  · rw [dif_neg h]
    by_cases hk : k.val < 20000
    · refine (pad_apply_of_not_inside _ _ _ _ _ _ _ (ix2 k s) (1 : Fin 2) ?_).trans pad_value
      show ¬(0 ≤ s.val ∧ (s.val - 0) % (0 + 1) = 0 ∧ (s.val - 0) / (0 + 1) < 5000)
      omega
    · refine (pad_apply_of_not_inside _ _ _ _ _ _ _ (ix2 k s) (0 : Fin 2) ?_).trans pad_value
      show ¬(0 ≤ k.val ∧ (k.val - 0) % (0 + 1) = 0 ∧ (k.val - 0) / (0 + 1) < 20000)
      omega

end AtIdeal

end Cert.KernelIdeal.Blocks

end
-- ==== Proof.Accum.lean ====
/-
  The running block across the grid, and the array the grid leaves.

  Fix an output entry: row r = 512·(t/100) + p and column s = 1024·((t/20)%5) + q.  The contraction at (r, s) has
  20480 terms x[r,k] · (w[k,s] · mask[k,s]) over the padded arrays, cut into 20 runs of 1024.  After the grid point t
  (contraction tile j = t % 20) the running block's entry (p, q) is the sum of runs 0 … j: the first point of a
  group of 20 starts from zero, each later point adds its run to what the point before left (induction on t).
  The last point of a group writes the running block out, so the output tile's entry is the sum of all 20 runs,
  which is the whole 20480-term sum.  The 40 output tiles cover the padded result array.
-/
import proofs.«129715_j71700184039905_1_alg».proof.Proof.Spec
import proofs.«129715_j71700184039905_1_alg».proof.Proof.Payload
import proofs.«129715_j71700184039905_1_alg».proof.Proof.Pieces
import proofs.«129715_j71700184039905_1_alg».proof.Proof.Blocks

set_option maxRecDepth 16384

noncomputable section

namespace Cert.KernelIdeal.Accum

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Blocks Cert.MaskedProduct

variable (m : (ℓ : Loc nD τ sig) → Buf (Elt Ideal) ℓ)

/-- The 20480 contraction terms at entry (r, s) of the padded arrays. -/
abbrev terms (c : Dev nD) (r : Fin 4096) (s : Fin 5120) : Fin 20480 → EReal :=
  term (M := 4096) (K := 20480) (N := 5120) (xpad m c) (wpad m c) (mpad m c) r s

/-- The tile product's entry at point t is run t % 20 of the contraction at the entry's place in the arrays. -/
theorem tile_sum (c : Dev nD) (t : Fin cfg0.N) (p : Fin 512) (q : Fin 1024) (r : Fin 4096) (s : Fin 5120)
    (hr : r.val = t.val / 100 * 512 + p.val) (hs : s.val = t.val / 20 % 5 * 1024 + q.val) :
    ∑ kk : Fin 1024, xblk m c t (ix2 p kk) * (wblk m c t (ix2 kk q) * mblk m c t (ix2 kk q))
      = runSum (terms m c r s) (t.val % 20) := by
  rw [runSum_of_lt _ _ (Nat.mod_lt _ (by norm_num))]
  refine Finset.sum_congr rfl fun kk _ => ?_
  have hkk := kk.isLt
  rw [xblk_apply m c t p kk r ⟨t.val % 20 * 1024 + kk.val, by omega⟩ hr rfl,
    wblk_apply m c t kk q ⟨t.val % 20 * 1024 + kk.val, by omega⟩ s rfl hs,
    mblk_apply m c t kk q ⟨t.val % 20 * 1024 + kk.val, by omega⟩ s rfl hs]
  rfl

/-- One step at point t over a running block `acc`, at entry (p, q): `acc` there plus run t % 20. -/
theorem step_entry (c : Dev nD) (t : Fin cfg0.N) (acc : Vec Ideal S512x1024 .f32) (p : Fin 512) (q : Fin 1024)
    (r : Fin 4096) (s : Fin 5120) (hr : r.val = t.val / 100 * 512 + p.val) (hs : s.val = t.val / 20 % 5 * 1024 + q.val) :
    k0_pay2 (F := Ideal) (xblk m c t) (wblk m c t) (mblk m c t) acc (ix2 p q)
      = acc (ix2 p q) + runSum (terms m c r s) (t.val % 20) :=
  (Payload.step_apply (xblk m c t) (wblk m c t) (mblk m c t) acc p q).trans
    (congrArg (acc (ix2 p q) + ·) (tile_sum m c t p q r s hr hs))

/-- What the step before point t left in the running block. -/
abbrev prevAcc (c : Dev nD) (t : Fin cfg0.N) : Vec Ideal S512x1024 .f32 :=
  (outsAt0 m c (t.val - 1) (Nat.lt_of_le_of_lt (Nat.sub_le _ _) t.isLt)).2

/-- The running block after point t. -/
abbrev accAt (c : Dev nD) (n : ℕ) (h : n < cfg0.N) : Vec Ideal S512x1024 .f32 := (outsAt0 m c n h).2

/-- At the first point of a group of 20 the running block holds run 0. -/
theorem first_entry (c : Dev nD) (t : Fin cfg0.N) (h0 : t.val % 20 = 0) (p : Fin 512) (q : Fin 1024)
    (r : Fin 4096) (s : Fin 5120) (hr : r.val = t.val / 100 * 512 + p.val) (hs : s.val = t.val / 20 % 5 * 1024 + q.val) :
    accAt m c t.val t.isLt (ix2 p q) = ∑ j ∈ Finset.range (t.val % 20 + 1), runSum (terms m c r s) j := by
  have h1 : ¬t.val % 20 = 19 := by omega
  unfold accAt
  rw [outsAt0_A m c t h0 h1]
  dsimp only
  refine (congrFun (Pieces.first_acc (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h' => h1 ((hcond0_1 t).mp h')) (iblk m c 0 t) (iblk m c 1 t) (iblk m c 2 t)) (ix2 p q)).trans ?_
  refine (step_entry m c t (k0_pay1 (F := Ideal)) p q r s hr hs).trans ?_
  rw [Payload.reset_apply, zero_add, h0, Finset.sum_range_succ, Finset.range_zero, Finset.sum_empty, zero_add]

/-- At a later point of a group the running block holds one more run than after the point before. -/
theorem later_entry (c : Dev nD) (t : Fin cfg0.N) (h0 : ¬t.val % 20 = 0) (p : Fin 512) (q : Fin 1024)
    (r : Fin 4096) (s : Fin 5120) (hr : r.val = t.val / 100 * 512 + p.val) (hs : s.val = t.val / 20 % 5 * 1024 + q.val)
    (ih : prevAcc m c t (ix2 p q) = ∑ j ∈ Finset.range (t.val % 20), runSum (terms m c r s) j) :
    accAt m c t.val t.isLt (ix2 p q) = ∑ j ∈ Finset.range (t.val % 20 + 1), runSum (terms m c r s) j := by
  unfold accAt
  by_cases h1 : t.val % 20 = 19
  · rw [outsAt0_C m c t h0 h1]
    dsimp only
    refine (congrFun (Pieces.last_acc (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h1) (iblk m c 0 t) (iblk m c 1 t) (iblk m c 2 t) (prevAcc m c t)) (ix2 p q)).trans ?_
    refine (step_entry m c t (prevAcc m c t) p q r s hr hs).trans ?_
    rw [Finset.sum_range_succ, ih]
  · rw [outsAt0_B m c t h0 h1]
    dsimp only
    refine (congrFun (Pieces.middle_acc (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) (fun h' => h1 ((hcond0_1 t).mp h')) (iblk m c 0 t) (iblk m c 1 t) (iblk m c 2 t) (prevAcc m c t)) (ix2 p q)).trans ?_
    refine (step_entry m c t (prevAcc m c t) p q r s hr hs).trans ?_
    rw [Finset.sum_range_succ, ih]

/-- After point n the running block's entry (p, q) is the sum of runs 0 … n % 20 of the contraction at its place. -/
theorem acc_eq (c : Dev nD) : ∀ (n : ℕ) (h : n < cfg0.N) (p : Fin 512) (q : Fin 1024) (r : Fin 4096) (s : Fin 5120),
    r.val = n / 100 * 512 + p.val → s.val = n / 20 % 5 * 1024 + q.val →
    accAt m c n h (ix2 p q) = ∑ j ∈ Finset.range (n % 20 + 1), runSum (terms m c r s) j
  | 0, h, p, q, r, s, hr, hs => first_entry m c ⟨0, h⟩ rfl p q r s hr hs
  | n + 1, h, p, q, r, s, hr, hs => by
    by_cases h0 : (n + 1) % 20 = 0
    · exact first_entry m c ⟨n + 1, h⟩ h0 p q r s hr hs
    · refine later_entry m c ⟨n + 1, h⟩ h0 p q r s hr hs ?_
      have ih := acc_eq c n (Nat.lt_of_succ_lt h) p q r s (by omega) (by omega)
      show accAt m c n _ (ix2 p q) = ∑ j ∈ Finset.range ((n + 1) % 20), runSum (terms m c r s) j
      rw [show (n + 1) % 20 = n % 20 + 1 by omega]
      exact ih

/-- The padded result: the masked product of the padded arrays. -/
abbrev presult (c : Dev nD) : Vec Ideal S4096x5120 .f32 :=
  prod (M := 4096) (K := 20480) (N := 5120) (xpad m c) (wpad m c) (mpad m c)

/-- At the last point of a group the output tile's entry (p, q) is the padded result at the entry's place. -/
theorem out_entry (c : Dev nD) (t : Fin cfg0.N) (h19 : t.val % 20 = 19) (p : Fin 512) (q : Fin 1024)
    (r : Fin 4096) (s : Fin 5120) (hr : r.val = t.val / 100 * 512 + p.val) (hs : s.val = t.val / 20 % 5 * 1024 + q.val) :
    ((outsAt0 m c t.val t.isLt).1 : Vec Ideal S512x1024 .f32) (ix2 p q) = presult m c (ix2 r s) := by
  have h0 : ¬t.val % 20 = 0 := by omega
  rw [outsAt0_C m c t h0 h19]
  dsimp only
  refine (congrFun (Pieces.last_out (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h19) (iblk m c 0 t) (iblk m c 1 t) (iblk m c 2 t) (prevAcc m c t)) (ix2 p q)).trans ?_
  refine (step_entry m c t (prevAcc m c t) p q r s hr hs).trans ?_
  have hprev := acc_eq m c (t.val - 1) (Nat.lt_of_le_of_lt (Nat.sub_le _ _) t.isLt) p q r s (by omega) (by omega)
  have e19 : (t.val - 1) % 20 + 1 = 19 := by omega
  rw [e19] at hprev
  rw [h19]
  refine (congrArg (· + runSum (terms m c r s) 19) hprev).trans ?_
  exact (Finset.sum_range_succ (fun j => runSum (terms m c r s) j) 19).symm.trans (sum_runs (terms m c r s))

/-- What a writing point writes back is its tile of the padded result. -/
theorem flushed_eq (c : Dev nD) (t : Fin cfg0.N) (hf : (cfg0.win 3).flush t = true) :
    (dats m 0 c).flushed 3 t = ((cfg0.win 3).blk t).view.read (Elt Ideal) (presult m c) := by
  have h19 : t.val % 20 = 19 := (flush0_3 t).mp hf
  have hN : t.val < 800 := lt_of_lt_of_eq t.isLt N_0
  show (cfg0.win 3).cut (grid0.coords t) ((dats m 0 c).after 3 t) = _
  rw [after0_3]
  refine funext fun (y : S512x1024.Idx) => ?_
  rw [View.read_apply]
  have hy0 : (y 0).val < 512 := (y 0).isLt
  have hy1 : (y 1).val < 1024 := (y 1).isLt
  refine Eq.trans ?_ ((out_entry m c t h19 (y 0) (y 1) ⟨t.val / 100 * 512 + (y 0).val, by omega⟩
    ⟨t.val / 20 % 5 * 1024 + (y 1).val, by omega⟩ rfl rfl).trans ?_)
  · refine congrArg ((outsAt0 m c t.val t.isLt).1 : Vec Ideal S512x1024 .f32) (funext fun a => ?_)
    match a with
    | ⟨0, _⟩ => rfl
    | ⟨1, _⟩ => rfl
  · have e : (((cfg0.win 3).blk t).view.emb y : S4096x5120.Idx)
        = ix2 (⟨t.val / 100 * 512 + (y 0).val, by omega⟩ : Fin 4096) (⟨t.val / 20 % 5 * 1024 + (y 1).val, by omega⟩ : Fin 5120) := by
      funext a
      apply Fin.ext
      match a with
      | ⟨0, _⟩ => show win0_3.index t 0 * 512 + 1 * (y 0).val = t.val / 100 * 512 + (y 0).val; rw [(idx_o t).1]; omega
      | ⟨1, _⟩ => show win0_3.index t 1 * 1024 + 1 * (y 1).val = t.val / 20 % 5 * 1024 + (y 1).val; rw [(idx_o t).2]; omega
    rw [e]
    exact (cast_eq _ _).symm

/-- Every entry of the padded result lies in the tile of some writing point. -/
theorem covered (i : S4096x5120.Idx) :
    ∃ t : Fin cfg0.N, (cfg0.win 3).flush t = true ∧ i ∈ ((cfg0.win 3).blk t).view.set := by
  have hi0 : (i 0).val < 4096 := (i 0).isLt
  have hi1 : (i 1).val < 5120 := (i 1).isLt
  obtain ⟨n, hn⟩ : ∃ n, n = ((i 0).val / 512 * 5 + (i 1).val / 1024) * 20 + 19 := ⟨_, rfl⟩
  have hlt : n < 800 := by omega
  refine ⟨⟨n, lt_of_lt_of_eq hlt N_0.symm⟩, (flush0_3 _).mpr (by show n % 20 = 19; omega), ?_⟩
  show i ∈ ((View.whole main_v3).slice (win0_3.rect ⟨n, lt_of_lt_of_eq hlt N_0.symm⟩)).set
  rw [View.set_slice_whole, Rect.mem_set_unit]
  intro a
  match a with
  | ⟨0, _⟩ =>
    show win0_3.index ⟨n, _⟩ 0 * 512 ≤ (i 0).val ∧ (i 0).val < win0_3.index ⟨n, _⟩ 0 * 512 + 512
    rw [(idx_o ⟨n, lt_of_lt_of_eq hlt N_0.symm⟩).1]
    show n / 100 * 512 ≤ (i 0).val ∧ (i 0).val < n / 100 * 512 + 512
    omega
  | ⟨1, _⟩ =>
    show win0_3.index ⟨n, _⟩ 1 * 1024 ≤ (i 1).val ∧ (i 1).val < win0_3.index ⟨n, _⟩ 1 * 1024 + 1024
    rw [(idx_o ⟨n, lt_of_lt_of_eq hlt N_0.symm⟩).2]
    show n / 20 % 5 * 1024 ≤ (i 1).val ∧ (i 1).val < n / 20 % 5 * 1024 + 1024
    omega

/-- The grid leaves the padded result in its output array. -/
theorem final (c : Dev nD) : (dats m 0 c).arrAt 3 cfg0.N = presult m c :=
  (dats m 0 c).arrAt_eq_of_cover 3 (presult m c) (fun t hf => flushed_eq m c t hf) covered

end Cert.KernelIdeal.Accum

end
-- ==== Proof.KernelValue.lean ====
/-
  The kernel program's result, and that it is the masked product of its arguments.

  After the grid the program slices rows 0 … 4095 and columns 0 … 4999 out of the padded result.  At such an entry
  the padded 20480-term contraction is the 20000-term contraction of the arguments, because every padded term is
  0 · (0 · 0) = 0 (no finiteness of the inputs is needed: zero times any extended real is zero, and re-indexing a
  finite sum is valid in any commutative monoid).
-/
import proofs.«129715_j71700184039905_1_alg».proof.Proof.Accum

set_option maxRecDepth 16384

noncomputable section

namespace Cert.KernelIdeal.KernelValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Blocks Cert.KernelIdeal.Accum

variable (m : (ℓ : Loc nD τ sig) → Buf (Elt Ideal) ℓ) (ρ : Dev nD → PrngReg)

/-- The program's result: the padded result cut back to 4096 × 5000. -/
abbrev result (c : Dev nD) : Vec Ideal S4096x5000 .f32 :=
  extractStridedSlice S4096x5000 ![0, 0] (presult m c) slices_S4096x5120_S4096x5000_0_0

/-- The host's slice after the grid reads the output array the grid left. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  exact congrArg (fun X : Vec Ideal S4096x5120 .f32 => extractStridedSlice S4096x5000 ![0, 0] X slices_S4096x5120_S4096x5000_0_0)
    ((Pipeline.withArrays_arr spec0 launch0.win.arr_inj c (V0 m c) (fun w => (dats m 0 c).arrAt w cfg0.N) 3).trans (final m c))

/-- Every weakly fair execution of the kernel program ends with the result buffer at `result` and the three
    arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The result is the masked product of the three arguments. -/
theorem result_eq (c : Dev nD) :
    result m c = Cert.MaskedProduct.prod (M := 4096) (K := 20000) (N := 5000) (xarg m c) (warg m c) (marg m c) := by
  funext i
  obtain ⟨r, s, rfl⟩ : ∃ (r : Fin 4096) (s : Fin 5000), i = ix2 r s := ⟨i 0, i 1, eq_ix2 i⟩
  have hs := s.isLt
  refine Eq.trans ?_ (Cert.MaskedProduct.prod_padded (xarg m c) (warg m c) (marg m c) (xpad m c) (wpad m c) (mpad m c)
    (xpad_apply m c) (wpad_apply m c) (mpad_apply m c) r s)
  exact extractStridedSlice_apply _ _ _ (ix2 r s) (ix2 r ⟨s.val, by omega⟩) (fun a => by
    match a with
    | ⟨0, _⟩ => show r.val = 0 + r.val; omega
    | ⟨1, _⟩ => show s.val = 0 + s.val; omega)

end Cert.KernelIdeal.KernelValue

end
-- ==== Proof.RefValue.lean ====
/-
  The reference computes the masked product: its two operations are the entrywise product w ⊙ mask and then the
  matrix product with x, whose entry (r, s) is the sum over the 20000 contracted positions k of x[r,k] · (w ⊙ mask)[k,s].
-/
import proofs.«129715_j71700184039905_1_alg».proof.Proof.Gen.ReferenceIdeal.Read
import proofs.«129715_j71700184039905_1_alg».proof.Proof.Spec

noncomputable section

namespace Cert.ReferenceIdeal.RefValue

open Cert.ReferenceIdeal Cert.ReferenceIdeal.Read Idealize.ShloMosaic Idealize.ShloMosaic.ValueIdx

/-- The reference's result, as one function of its three arguments, is the masked product. -/
theorem result_eq (x0 : (⟨S4096x20000, .f32⟩ : BufTy).Contents (Elt Ideal)) (x1 x2 : (⟨S20000x5000, .f32⟩ : BufTy).Contents (Elt Ideal)) :
    val_main_v1 (F := Ideal) x0 x1 x2 = Cert.MaskedProduct.prod (M := 4096) (K := 20000) (N := 5000) x0 x1 x2 := by
  funext i
  rw [val_main_v1_apply]
  unfold Cert.MaskedProduct.prod Cert.MaskedProduct.term
  refine Finset.sum_congr rfl fun k _ => ?_
  rw [val_main_v0_apply]
  have el : lidx_main_v1 i k = ix2 (i 0) k := funext fun a => by
    match a with
    | ⟨0, _⟩ => rfl
    | ⟨1, _⟩ => rfl
  have er : ridx_main_v1 i k = ix2 k (i 1) := funext fun a => by
    match a with
    | ⟨0, _⟩ => rfl
    | ⟨1, _⟩ => rfl
  rw [el, er]
  rfl

end Cert.ReferenceIdeal.RefValue

end
-- ==== Proof.lean ====
/-
  The tiled masked product against its one-line reference, over the extended reals.

  The kernel program pads x (4096 × 20000), weight and mask (20000 × 5000) with zeros to 4096 × 20480 and
  20480 × 5120, runs an 8 × 5 × 20 grid of 512 × 1024 by 1024 × 1024 tile products accumulated over the last grid
  axis into a running block (reset at contraction tile 0, written out at contraction tile 19), and slices the
  4096 × 5000 corner of the result.  The reference computes x · (weight ⊙ mask) directly.

  Both are, entry by entry, the sum over k < 20000 of x[r,k] · (weight[k,s] · mask[k,s]):
    * the reference by the meaning of its two operations;
    * the kernel because the running block after contraction tile j holds the first j + 1 runs of 1024 terms of the
      20480-term padded contraction (induction along the grid), the 20 runs add up to the whole padded contraction
      (re-indexing a finite sum), and the 480 padded terms are 0 · (0 · 0) = 0.
  The conversions to bf16 inside the kernel are the identity on exact values, and the matrix unit fed a zero
  accumulator returns the plain sum; no law used needs the inputs to be finite.
  The three termination-and-no-fault claims are the generated ones (the reference's is its generated run with the
  result forgotten); the idealization rewrote nothing, so that claim is trivial.
-/
import proofs.«129715_j71700184039905_1_alg».proof.Defs
import proofs.«129715_j71700184039905_1_alg».proof.Proof.Gen.Kernel
import proofs.«129715_j71700184039905_1_alg».proof.Proof.Gen.Kernel.Skeleton
import proofs.«129715_j71700184039905_1_alg».proof.Proof.Gen.Kernel.Launch
import proofs.«129715_j71700184039905_1_alg».proof.Proof.Gen.Kernel.Points
import proofs.«129715_j71700184039905_1_alg».proof.Proof.Gen.Kernel.Frame
import proofs.«129715_j71700184039905_1_alg».proof.Proof.Gen.KernelIdeal
import proofs.«129715_j71700184039905_1_alg».proof.Proof.Gen.KernelIdeal.Skeleton
import proofs.«129715_j71700184039905_1_alg».proof.Proof.Gen.KernelIdeal.Launch
import proofs.«129715_j71700184039905_1_alg».proof.Proof.Gen.KernelIdeal.Points
import proofs.«129715_j71700184039905_1_alg».proof.Proof.Gen.KernelIdeal.Frame
import proofs.«129715_j71700184039905_1_alg».proof.Proof.Gen.ReferenceIdeal
import proofs.«129715_j71700184039905_1_alg».proof.Proof.Gen.ReferenceIdeal.Run
import proofs.«129715_j71700184039905_1_alg».proof.Proof.Gen.ReferenceIdeal.Read
import proofs.«129715_j71700184039905_1_alg».proof.Proof.Gen.Pre_finite_inputs
import proofs.«129715_j71700184039905_1_alg».proof.Proof.KernelValue
import proofs.«129715_j71700184039905_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the masked product of the (agreeing) arguments in their result buffers. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2.1,
    (hagree c).2.2]
  exact (Cert.KernelIdeal.KernelValue.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
